-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x1024 : Shape := ⟨4, ![2, 16, 1024, 1024]⟩
abbrev S2x16x1024x64 : Shape := ⟨4, ![2, 16, 1024, 64]⟩
abbrev S_ : Shape := ⟨0, ![]⟩

class Facts : Prop where
  bcast_S_S2x16x1024x1024 : S_.BroadcastsInDim S2x16x1024x1024 (![] : Fin 0 → Fin S2x16x1024x1024.rank)
  reducesTo_S2x16x1024x1024_S_d0_1_2_3 : S2x16x1024x1024.ReducesTo [0, 1, 2, 3] S_
  h_S_ : 0 < S_.numel
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_

variable [Facts]

def fn {F : FTy → Type} [FloatOps F] (main_arg0 : FVec F S2x16x1024x1024 .f32) (main_arg1 : FVec F S2x16x1024x64 .f32) : IVec S_ 1 :=
  let main_v0 : FVec F S2x16x1024x1024 .f32 := Host.absf main_arg0
  let main_cst : FVec F S_ .f32 := constant S_ .f32 0x7F800000#32
  let main_v1 : FVec F S2x16x1024x1024 .f32 := broadcastInDim S2x16x1024x1024 ![] bcast_S_S2x16x1024x1024 main_cst
  let main_v2 : IVec S2x16x1024x1024 1 := cmpf .olt main_v0 main_v1
  let main_c : IVec S_ 1 := constantI S_ 1 1#1
  let main_v3 : IVec S_ 1 := (fun x v => Host.reduce IntOp.andi x v reducesTo_S2x16x1024x1024_S_d0_1_2_3 h_S_) main_v2 main_c
  let main_v4 : FVec F S2x16x1024x64 .f32 := Host.absf main_arg1
  let main_cst_0 : FVec F S_ .f32 := constant S_ .f32 0x7F800000#32
  let main_v5 : FVec F S2x16x1024x64 .f32 := broadcastInDim S2x16x1024x64 ![] bcast_S_S2x16x1024x64 main_cst_0
  let main_v6 : IVec S2x16x1024x64 1 := cmpf .olt main_v4 main_v5
  let main_c_1 : IVec S_ 1 := constantI S_ 1 1#1
  let main_v7 : IVec S_ 1 := (fun x v => Host.reduce IntOp.andi x v reducesTo_S2x16x1024x64_S_d0_1_2_3 h_S_) main_v6 main_c_1
  let main_v8 : IVec S_ 1 := andi main_v3 main_v7
  main_v8
-- ==== Kernel.lean ====
abbrev S2x16x1024x1024 : Shape := ⟨4, ![2, 16, 1024, 1024]⟩
abbrev S2x16x1024x64 : Shape := ⟨4, ![2, 16, 1024, 64]⟩
abbrev S32x1024x1024 : Shape := ⟨3, ![32, 1024, 1024]⟩
abbrev S32x1024x64 : Shape := ⟨3, ![32, 1024, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024x64, .f32⟩
  | .hbm, ⟨2, _⟩ => ⟨S32x1024x1024, .f32⟩
  | .hbm, ⟨3, _⟩ => ⟨S32x1024x64, .f32⟩
  | .hbm, ⟨4, _⟩ => ⟨S32x1024x64, .f32⟩
  | .hbm, ⟨5, _⟩ => ⟨S2x16x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | _, _ => ⟨S2x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x1024x1024_S32x1024x1024 : S2x16x1024x1024.ShapeCasts S32x1024x1024
  shapeCasts_S2x16x1024x64_S32x1024x64 : S2x16x1024x64.ShapeCasts S32x1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S32x1024x64_S2x16x1024x64 : S32x1024x64.ShapeCasts S2x16x1024x64
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x1024x64.size a
  hwx0_1 : ∀ i : grid0.Coords, EltTy.bits .f32 = 32 ∨ (Rect.block (s := S32x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x1024x64.size a
  hwx0_2 : ∀ i : grid0.Coords, EltTy.bits .f32 = 32 ∨ (Rect.block (s := S32x1024x64) S1x1024x64.size (cc0_transform_2 i) (hinb0_2 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x1024x1024 : Shape := ⟨4, ![2, 16, 1024, 1024]⟩
abbrev S2x16x1024x64 : Shape := ⟨4, ![2, 16, 1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024x64, .f32⟩
  | .hbm, ⟨2, _⟩ => ⟨S2x16x1024x64, .f32⟩
  | _, _ => ⟨S2x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2x16x1024x1024_S2x16x1024x64_S2x16x1024x64_3_2_2_3_01_01_wf : DotDims.WF S2x16x1024x1024 S2x16x1024x64 S2x16x1024x64 [3] [2] [2] [3] [0, 1] [0, 1]

variable [Facts₀]

def dot_S2x16x1024x1024_S2x16x1024x64_S2x16x1024x64_3_2_2_3_01_01 : DotDims S2x16x1024x1024 S2x16x1024x64 S2x16x1024x64 where
  lhsContracting := [3]
  rhsContracting := [2]
  lhsNonContracting := [2]
  rhsNonContracting := [3]
  lhsBatch := [0, 1]
  rhsBatch := [0, 1]
  wf := dot_S2x16x1024x1024_S2x16x1024x64_S2x16x1024x64_3_2_2_3_01_01_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.BlockProduct.lean ====
/- What one grid point's body stores, read at one index.

   The body loads its two blocks, of shapes [1, 1024, 1024] and [1, 1024, 64], drops the unit axis, narrows both to the
   16-bit format (no change of value on the extended reals), multiplies them into a zero accumulator and puts the unit
   axis back. So the stored block at (0, s, d) is the sum over k of left (0, s, k) · right (0, k, d). -/
import proofs.«156497_j20512763806070_1_alg».proof.Proof.Gen.KernelIdeal.Skeleton
import proofs.«156497_j20512763806070_1_alg».proof.Proof.LibDotPlain
import Idealize.ShloMosaic.Lib.ValueIdx
import Idealize.ShloMosaic.Lib.Pipeline.Value
import Idealize.ShloMosaic.PureOps.Ideal.Laws

noncomputable section

namespace Cert.KernelIdeal.BlockProduct

open Idealize.ShloMosaic Idealize.ShloMosaic.ValueIdx Cert.KernelIdeal Cert.KernelIdeal.Gen
open scoped BigOperators

/-- The left block with its unit axis dropped, at (s, k), is the block at (0, s, k). -/
theorem left_dropped (x : Vec Ideal S1x1024x1024 .f32) (z : Fin 1) (s k : Fin 1024) :
    shapeCast S1024x1024 x shapeCasts_S1x1024x1024_S1024x1024 (ix2 s k) = x (ix3 z s k) := by
  refine shapeCast_apply x _ _ _ ?_
  rw [Shape.rowMajor_val_two, Shape.rowMajor_val_three]
  show (z.val * 1024 + s.val) * 1024 + k.val = s.val * 1024 + k.val
  have := z.isLt
  omega

/-- The right block with its unit axis dropped, at (k, d), is the block at (0, k, d). -/
theorem right_dropped (y : Vec Ideal S1x1024x64 .f32) (z : Fin 1) (k : Fin 1024) (d : Fin 64) :
    shapeCast S1024x64 y shapeCasts_S1x1024x64_S1024x64 (ix2 k d) = y (ix3 z k d) := by
  refine shapeCast_apply y _ _ _ ?_
  rw [Shape.rowMajor_val_two, Shape.rowMajor_val_three]
  show (z.val * 1024 + k.val) * 64 + d.val = k.val * 64 + d.val
  have := z.isLt
  omega

/-- The stored block at (0, s, d): the sum over k of left (0, s, k) · right (0, k, d). -/
theorem stored_apply (x : Vec Ideal S1x1024x1024 .f32) (y : Vec Ideal S1x1024x64 .f32) (z : Fin 1) (s : Fin 1024) (d : Fin 64) :
    k0_pay1 (F := Ideal) x y (ix3 z s d) = ∑ k : Fin 1024, x (ix3 z s k) * y (ix3 z k d) := by
  unfold k0_pay1
  refine (shapeCast_apply _ shapeCasts_S1024x64_S1x1024x64 (ix3 z s d) (ix2 s d) ?_).trans ?_
  · rw [Shape.rowMajor_val_two, Shape.rowMajor_val_three]
    show s.val * 64 + d.val = (z.val * 1024 + s.val) * 64 + d.val
    have := z.isLt
    omega
  refine (Cert.DotPlain.matmul_zero_rows_cols (M := 1024) (K := 1024) (N := 64)
    dot_S1024x1024_S1024x64_S1024x64_1_0_0_1_n_n rfl rfl rfl rfl rfl rfl none _ _ s d).trans ?_
  refine Finset.sum_congr rfl fun k _ => ?_
  exact congrArg₂ (· * ·) (left_dropped x z s k) (right_dropped y z k d)

end Cert.KernelIdeal.BlockProduct

end
-- ==== Proof.BatchedProduct.lean ====
/- The batched matrix product, as one function of the two argument arrays.

   The left argument is an array over (b, h, s, k), the right one over (b, h, k, d); the product at (b, h, s, d) is the
   sum over k of left (b, h, s, k) · right (b, h, k, d). Both arrays can also be read with the two leading axes merged
   into one axis g = 16 · b + h (a row-major reshape); the product of the merged arrays at (g, s, d), with the leading
   axis split again, is the same sum term by term, because a row-major reshape moves no element within its row. -/
import Idealize.ShloMosaic.PureOps.Ideal
import Idealize.ShloMosaic.Lib.ValueIdx
import Idealize.ShloMosaic.Lib.Pipeline.Value

noncomputable section

namespace Cert.BatchedProduct

open Idealize.ShloMosaic Idealize.ShloMosaic.ValueIdx
open scoped BigOperators

/-- The left argument's shape, (b, h, s, k). -/
abbrev SL4 : Shape := ⟨4, ![2, 16, 1024, 1024]⟩
/-- The right argument's and the result's shape, (b, h, ·, d). -/
abbrev SR4 : Shape := ⟨4, ![2, 16, 1024, 64]⟩
/-- The left argument with (b, h) merged. -/
abbrev SL3 : Shape := ⟨3, ![32, 1024, 1024]⟩
/-- The right argument and the result with (b, h) merged. -/
abbrev SR3 : Shape := ⟨3, ![32, 1024, 64]⟩

/-- The batched product: at (b, h, s, d) the sum over k of x (b, h, s, k) · y (b, h, k, d). -/
def prod4 (x : SL4.Idx → EReal) (y : SR4.Idx → EReal) : SR4.Idx → EReal :=
  fun i => ∑ k : Fin 1024, x (ix4 (i 0) (i 1) (i 2) k) * y (ix4 (i 0) (i 1) k (i 3))

/-- The same product over the merged leading axis: at (g, s, d) the sum over k of x (g, s, k) · y (g, k, d). -/
def prod3 (x : SL3.Idx → EReal) (y : SR3.Idx → EReal) : SR3.Idx → EReal :=
  fun j => ∑ k : Fin 1024, x (ix3 (j 0) (j 1) k) * y (ix3 (j 0) k (j 2))

/-- The merged index of (b, h). -/
def merge (b : Fin 2) (h : Fin 16) : Fin 32 := ⟨16 * b.val + h.val, by have := b.isLt; have := h.isLt; omega⟩

/-- The left argument merged, at (16 b + h, s, k), is the argument at (b, h, s, k). -/
theorem left_merged (x : SL4.Idx → EReal) (h0 : SL4.ShapeCasts SL3) (b : Fin 2) (h : Fin 16) (s k : Fin 1024) :
    shapeCast SL3 x h0 (ix3 (merge b h) s k) = x (ix4 b h s k) := by
  refine shapeCast_apply x h0 _ _ ?_
  rw [Shape.rowMajor_val_three, Shape.rowMajor_val_four]
  show (((b.val * 16 + h.val) * 1024 + s.val) * 1024 + k.val) = ((16 * b.val + h.val) * 1024 + s.val) * 1024 + k.val
  omega

/-- The right argument merged, at (16 b + h, k, d), is the argument at (b, h, k, d). -/
theorem right_merged (y : SR4.Idx → EReal) (h1 : SR4.ShapeCasts SR3) (b : Fin 2) (h : Fin 16) (k : Fin 1024) (d : Fin 64) :
    shapeCast SR3 y h1 (ix3 (merge b h) k d) = y (ix4 b h k d) := by
  refine shapeCast_apply y h1 _ _ ?_
  rw [Shape.rowMajor_val_three, Shape.rowMajor_val_four]
  show (((b.val * 16 + h.val) * 1024 + k.val) * 64 + d.val) = ((16 * b.val + h.val) * 1024 + k.val) * 64 + d.val
  omega

/-- A merged array split again, at (b, h, s, d), is the merged array at (16 b + h, s, d). -/
theorem split_apply (z : SR3.Idx → EReal) (h2 : SR3.ShapeCasts SR4) (b : Fin 2) (h : Fin 16) (s : Fin 1024) (d : Fin 64) :
    shapeCast SR4 z h2 (ix4 b h s d) = z (ix3 (merge b h) s d) := by
  refine shapeCast_apply z h2 _ _ ?_
  rw [Shape.rowMajor_val_three, Shape.rowMajor_val_four]
  show ((16 * b.val + h.val) * 1024 + s.val) * 64 + d.val = (((b.val * 16 + h.val) * 1024 + s.val) * 64 + d.val)
  omega

/-- Merging the leading axes of both arguments, multiplying block by block and splitting the result's leading axis
    again is the batched product. -/
theorem split_prod3_merged (x : SL4.Idx → EReal) (y : SR4.Idx → EReal)
    (h0 : SL4.ShapeCasts SL3) (h1 : SR4.ShapeCasts SR3) (h2 : SR3.ShapeCasts SR4) :
    shapeCast SR4 (prod3 (shapeCast SL3 x h0) (shapeCast SR3 y h1)) h2 = prod4 x y := by
  funext i
  obtain ⟨b, h, s, d, rfl⟩ : ∃ (b : Fin 2) (h : Fin 16) (s : Fin 1024) (d : Fin 64), i = ix4 b h s d :=
    ⟨i 0, i 1, i 2, i 3, eq_ix4 i⟩
  rw [split_apply]
  show (∑ k : Fin 1024, shapeCast SL3 x h0 (ix3 (merge b h) s k) * shapeCast SR3 y h1 (ix3 (merge b h) k d))
    = ∑ k : Fin 1024, x (ix4 b h s k) * y (ix4 b h k d)
  refine Finset.sum_congr rfl fun k _ => ?_
  rw [left_merged, right_merged]

end Cert.BatchedProduct

end
-- ==== Proof.ArrayAfter.lean ====
/- The kernel's output array after the run, as one function of the arrays the region finds.

   The grid has 32 points; point t fetches block t of the merged left array (all of its rows and columns), block t of
   the merged right array, and writes back block t of the output. What it writes is the product of the two fetched
   blocks, so the output array ends holding, at (g, s, d), the sum over k of left (g, s, k) · right (g, k, d). -/
import proofs.«156497_j20512763806070_1_alg».proof.Proof.Gen.KernelIdeal.Frame
import proofs.«156497_j20512763806070_1_alg».proof.Proof.BlockProduct
import proofs.«156497_j20512763806070_1_alg».proof.Proof.BatchedProduct
import Idealize.ShloMosaic.Lib.Pipeline.Value
import Idealize.ShloMosaic.Lib.StableHlo.Run

set_option maxRecDepth 16384

noncomputable section

namespace Cert.KernelIdeal.ArrayAfter

open Idealize.ShloMosaic Idealize.ShloMosaic.TcCoe Idealize.ShloMosaic.ValueIdx Idealize.SL.Sem
open Cert.KernelIdeal Cert.KernelIdeal.Gen Cert.BatchedProduct
open Idealize.ShloMosaic.Pipeline (Dat Cfg Window)
open scoped BigOperators

variable (m : (ℓ : Loc nD τ sig) → Buf (Elt Ideal) ℓ)

/-- The merged left array as the region finds it. -/
abbrev larr (c : Dev nD) : S32x1024x1024.Idx → EReal := V m c main_v0
/-- The merged right array as the region finds it. -/
abbrev rarr (c : Dev nD) : S32x1024x64.Idx → EReal := V m c main_v1
/-- The left block point t fetches. -/
abbrev lblk (c : Dev nD) (t : Fin cfg0.N) : Vec Ideal S1x1024x1024 .f32 := iblk m c 0 t
/-- The right block point t fetches. -/
abbrev rblk (c : Dev nD) (t : Fin cfg0.N) : Vec Ideal S1x1024x64 .f32 := iblk m c 1 t

/-- A grid point as an index of the leading axis. -/
abbrev lead (t : Fin cfg0.N) : Fin 32 := Fin.cast N_0 t

theorem zeros3 : (![0, 0, 0] : Fin 3 → Nat) = fun _ => 0 := funext fun a => by fin_cases a <;> rfl

/-- Every window's block index at point t is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The left block of point t at (0, s, k) is the merged left array at (t, s, k). -/
theorem lblk_apply (c : Dev nD) (t : Fin cfg0.N) (z : Fin 1) (s k : Fin 1024) :
    lblk m c t (ix3 z s k) = larr m c (ix3 (lead t) s k) := by
  obtain ⟨e0, e1, e2, -⟩ := block_index t
  show V m c main_v0 (((cfg0.win 0).blk t).view.emb (ix3 z s k)) = V m c main_v0 (ix3 (lead t) s k)
  refine congrArg _ (funext fun a => Fin.ext ?_)
  match a with
  | ⟨0, _⟩ => show win0_0.index t (0 : Fin 3) * 1 + 1 * z.val = t.val; have := z.isLt; omega
  | ⟨1, _⟩ => show win0_0.index t (1 : Fin 3) * 1024 + 1 * s.val = s.val; omega
  | ⟨2, _⟩ => show win0_0.index t (2 : Fin 3) * 1024 + 1 * k.val = k.val; omega

/-- The right block of point t at (0, k, d) is the merged right array at (t, k, d). -/
theorem rblk_apply (c : Dev nD) (t : Fin cfg0.N) (z : Fin 1) (k : Fin 1024) (d : Fin 64) :
    rblk m c t (ix3 z k d) = rarr m c (ix3 (lead t) k d) := by
  obtain ⟨-, -, -, e0, e1, e2, -⟩ := block_index t
  show V m c main_v1 (((cfg0.win 1).blk t).view.emb (ix3 z k d)) = V m c main_v1 (ix3 (lead t) k d)
  refine congrArg _ (funext fun a => Fin.ext ?_)
  match a with
  | ⟨0, _⟩ => show win0_1.index t (0 : Fin 3) * 1 + 1 * z.val = t.val; have := z.isLt; omega
  | ⟨1, _⟩ => show win0_1.index t (1 : Fin 3) * 1024 + 1 * k.val = k.val; omega
  | ⟨2, _⟩ => show win0_1.index t (2 : Fin 3) * 64 + 1 * d.val = d.val; omega

/-- The product of two blocks that are block g of two arrays is block g of the arrays' product: stated over plain
    blocks and arrays, the index of the array given by its coordinates. -/
theorem stored_eq_prod3 (X : S32x1024x1024.Idx → EReal) (Y : S32x1024x64.Idx → EReal)
    (x : Vec Ideal S1x1024x1024 .f32) (y : Vec Ideal S1x1024x64 .f32) (g : Fin 32)
    (hx : ∀ (z : Fin 1) (s k : Fin 1024), x (ix3 z s k) = X (ix3 g s k))
    (hy : ∀ (z : Fin 1) (k : Fin 1024) (d : Fin 64), y (ix3 z k d) = Y (ix3 g k d))
    (j : S1x1024x64.Idx) (i : S32x1024x64.Idx)
    (h0 : (i 0).val = g.val) (h1 : (i 1).val = (j 1).val) (h2 : (i 2).val = (j 2).val) :
    k0_pay1 (F := Ideal) x y j = prod3 X Y i := by
  obtain ⟨z, s, d, rfl⟩ : ∃ (z : Fin 1) (s : Fin 1024) (d : Fin 64), j = ix3 z s d := ⟨j 0, j 1, j 2, eq_ix3 j⟩
  have e0 : i 0 = g := Fin.ext h0
  have e1 : i 1 = s := Fin.ext h1
  have e2 : i 2 = d := Fin.ext h2
  rw [Cert.KernelIdeal.BlockProduct.stored_apply]
  unfold prod3
  rw [e0, e1, e2]
  exact Finset.sum_congr rfl fun k _ => by rw [hx, hy]

/-- What point t writes back is block t of the product of the merged arrays. -/
theorem flushed_eq (c : Dev nD) (t : Fin cfg0.N) :
    (dats m 0 c).flushed 2 t = ((cfg0.win 2).blk t).view.read (Elt Ideal) (prod3 (larr m c) (rarr m c)) := by
  show (cfg0.win 2).cut (grid0.coords t) ((dats m 0 c).after 2 t) = _
  rw [after0_2]
  unfold out0_2
  rw [View.canon_unit_zero zeros3]
  simp only [View.ld_unit_zero (S := S1x1024x1024) zeros3, View.ld_unit_zero (S := S1x1024x64) zeros3]
  obtain ⟨-, -, -, -, -, -, e0, e1, e2⟩ := block_index t
  funext j
  show k0_pay1 (F := Ideal) (lblk m c t) (rblk m c t) j = prod3 (larr m c) (rarr m c) (((cfg0.win 2).blk t).view.emb j)
  refine stored_eq_prod3 (larr m c) (rarr m c) (lblk m c t) (rblk m c t) (lead t) (lblk_apply m c t) (rblk_apply m c t) j _ ?_ ?_ ?_
  · show win0_2.index t (0 : Fin 3) * 1 + 1 * (j 0).val = t.val
    have : (j 0).val < 1 := (j 0).isLt
    omega
  · show win0_2.index t (1 : Fin 3) * 1024 + 1 * (j 1).val = (j 1).val
    omega
  · show win0_2.index t (2 : Fin 3) * 64 + 1 * (j 2).val = (j 2).val
    omega

/-- An index of the output array is in point t's block iff each coordinate is in the block's range on its axis. -/
theorem mem_blk (t : Fin cfg0.N) (i : S32x1024x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v2).slice (win0_2.rect t)).set ↔ _
  rw [View.set_slice_whole, Rect.mem_set_unit]
  exact Iff.rfl

/-- Every index (g, s, d) of the output array is in the block of the point g. -/
theorem covered (i : S32x1024x64.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 64 := (i 2).isLt
  let t : Fin cfg0.N := Fin.cast N_0.symm ⟨(i 0).val, hi0⟩
  obtain ⟨-, -, -, -, -, -, e0, e1, e2⟩ := block_index t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- The output array after the run: the product of the merged arrays. -/
theorem final (c : Dev nD) : (dats m 0 c).arrAt 2 cfg0.N = prod3 (larr m c) (rarr m c) :=
  (dats m 0 c).arrAt_eq_of_cover 2 _ (fun t _ => flushed_eq m c t) covered

/-- The merged left array is the left argument with its two leading axes merged. -/
theorem larr_eq (c : Dev nD) :
    larr m c = shapeCast S32x1024x1024 (m ((c : Thread nD τ).loc main_arg0)) shapeCasts_S2x16x1024x1024_S32x1024x1024 := by
  show StableHlo.after hostOps0 (fun b => m (c, b)) (Proc.devRef .tc main_v0) = _
  after_results
  rfl

/-- The merged right array is the right argument with its two leading axes merged. -/
theorem rarr_eq (c : Dev nD) :
    rarr m c = shapeCast S32x1024x64 (m ((c : Thread nD τ).loc main_arg1)) shapeCasts_S2x16x1024x64_S32x1024x64 := by
  show StableHlo.after hostOps0 (fun b => m (c, b)) (Proc.devRef .tc main_v1) = _
  after_results
  rfl

end Cert.KernelIdeal.ArrayAfter

end
-- ==== Proof.Result.lean ====
/- The kernel's result as a function of its arguments.

   After the region one host line splits the output array's leading axis again. The output array holds the product of
   the merged arguments, so the result is the batched product of the arguments themselves: at (b, h, s, d) the sum
   over k of left (b, h, s, k) · right (b, h, k, d). -/
import proofs.«156497_j20512763806070_1_alg».proof.Proof.Gen.KernelIdeal.Frame
import proofs.«156497_j20512763806070_1_alg».proof.Proof.ArrayAfter
import proofs.«156497_j20512763806070_1_alg».proof.Proof.BatchedProduct
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Cert.KernelIdeal Cert.KernelIdeal.Gen Cert.BatchedProduct Cert.KernelIdeal.ArrayAfter

variable (m : (ℓ : Loc nD τ sig) → Buf (Elt Ideal) ℓ) (ρ : Dev nD → PrngReg)

/-- The result buffer after the host line that follows the region: the output array with its leading axis split. -/
theorem tail_eq (c : Dev nD) :
    Pipeline.afterTail₀ cfgs (dats m) 0 (V0 m) [hostOps1] c main_v3
      = shapeCast S2x16x1024x64 ((dats m 0 c).arrAt 2 cfg0.N) shapeCasts_S32x1024x64_S2x16x1024x64 := by
  unfold Pipeline.afterTail₀
  show StableHlo.after hostOps1 _ (Proc.devRef .tc main_v3) = _
  after_results
  exact congrArg (fun z => shapeCast S2x16x1024x64 z shapeCasts_S32x1024x64_S2x16x1024x64)
    (Pipeline.withArrays_arr spec0 launch0.win.arr_inj c _ _ 2)

/-- The result buffer is the batched product of the argument arrays. -/
theorem result_eq (c : Dev nD) :
    Pipeline.afterTail₀ cfgs (dats m) 0 (V0 m) [hostOps1] c main_v3
      = prod4 (m ((c : Thread nD τ).loc main_arg0)) (m ((c : Thread nD τ).loc main_arg1)) := by
  rw [tail_eq, final, larr_eq, rarr_eq]
  exact split_prod3_merged _ _ _ _ _

/-- Every weakly fair execution of the kernel's program ends with the result at the batched product of the arguments
    and the arguments as they were. -/
theorem run : θ_run defs (onTc (τ := τ) (main (F := Ideal))) ⟨m, fun _ => 0, ρ⟩ fun r => ∀ c : Dev nD,
      r.2.mem ((c.tc : Thread nD τ).loc main_v3) = prod4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.Reference.lean ====
/- The reference's result as a function of its arguments.

   The reference is one host product with batch axes (b, h), contracting the left argument's last axis against the
   right argument's third: at (b, h, s, d) the sum over k of left (b, h, s, k) · right (b, h, k, d), the batched product. -/
import proofs.«156497_j20512763806070_1_alg».proof.Proof.Gen.ReferenceIdeal.Read
import proofs.«156497_j20512763806070_1_alg».proof.Proof.BatchedProduct
import Idealize.ShloMosaic.Lib.ValueIdx

noncomputable section

namespace Cert.ReferenceIdeal.RefValue

open Idealize.ShloMosaic Idealize.ShloMosaic.ValueIdx Cert.ReferenceIdeal Cert.ReferenceIdeal.Gen Cert.BatchedProduct
open scoped BigOperators

/-- The left operand's index under the sum: (b, h, s, k). -/
theorem left_index (i : S2x16x1024x64.Idx) (k : Fin 1024) : Read.lidx_main_v0 i k = ix4 (i 0) (i 1) (i 2) k :=
  funext fun a => Fin.ext (by match a with | ⟨0, _⟩ => rfl | ⟨1, _⟩ => rfl | ⟨2, _⟩ => rfl | ⟨3, _⟩ => rfl)

/-- The right operand's index under the sum: (b, h, k, d). -/
theorem right_index (i : S2x16x1024x64.Idx) (k : Fin 1024) : Read.ridx_main_v0 i k = ix4 (i 0) (i 1) k (i 3) :=
  funext fun a => Fin.ext (by match a with | ⟨0, _⟩ => rfl | ⟨1, _⟩ => rfl | ⟨2, _⟩ => rfl | ⟨3, _⟩ => rfl)

/-- The host product of the two arguments is their batched product. -/
theorem product_eq (x0 : (⟨S2x16x1024x1024, .f32⟩ : BufTy).Contents (Elt Ideal)) (x1 : (⟨S2x16x1024x64, .f32⟩ : BufTy).Contents (Elt Ideal)) :
    Read.val_main_v0 (F := Ideal) x0 x1 = prod4 x0 x1 := by
  funext i
  rw [Read.val_main_v0_apply]
  unfold prod4
  exact Finset.sum_congr rfl fun k _ => congrArg₂ (fun a b => x0 a * x1 b) (left_index i k) (right_index i k)

end Cert.ReferenceIdeal.RefValue

end
-- ==== Proof.lean ====
/- The kernel multiplies, for each of the 32 pairs (b, h), a 1024 × 1024 matrix by a 1024 × 64 matrix: it merges the
   two leading axes of both arguments, runs one grid point per merged index — the point fetches the two whole
   matrices, narrows them to the 16-bit format, multiplies them into a zero accumulator and writes the product back —
   and splits the leading axis of the result again. The reference is one batched host product of the arguments.
   On the extended reals the narrowing changes no value, so both results are, at (b, h, s, d), the sum over k of
   left (b, h, s, k) · right (b, h, k, d): the same sum over the same index set, term by term, with no rearrangement,
   so the finiteness of the inputs is never used. The idealization rewrote nothing, so there is nothing to preserve. -/
import proofs.«156497_j20512763806070_1_alg».proof.Defs
import proofs.«156497_j20512763806070_1_alg».proof.Proof.Gen.Kernel
import proofs.«156497_j20512763806070_1_alg».proof.Proof.Gen.Kernel.Skeleton
import proofs.«156497_j20512763806070_1_alg».proof.Proof.Gen.Kernel.Launch
import proofs.«156497_j20512763806070_1_alg».proof.Proof.Gen.Kernel.Points
import proofs.«156497_j20512763806070_1_alg».proof.Proof.Gen.Kernel.Frame
import proofs.«156497_j20512763806070_1_alg».proof.Proof.Gen.KernelIdeal
import proofs.«156497_j20512763806070_1_alg».proof.Proof.Gen.KernelIdeal.Skeleton
import proofs.«156497_j20512763806070_1_alg».proof.Proof.Gen.KernelIdeal.Launch
import proofs.«156497_j20512763806070_1_alg».proof.Proof.Gen.KernelIdeal.Points
import proofs.«156497_j20512763806070_1_alg».proof.Proof.Gen.KernelIdeal.Frame
import proofs.«156497_j20512763806070_1_alg».proof.Proof.Gen.ReferenceIdeal
import proofs.«156497_j20512763806070_1_alg».proof.Proof.Gen.ReferenceIdeal.Run
import proofs.«156497_j20512763806070_1_alg».proof.Proof.Gen.ReferenceIdeal.Read
import proofs.«156497_j20512763806070_1_alg».proof.Proof.Gen.Pre_finite_inputs
import proofs.«156497_j20512763806070_1_alg».proof.Proof.Result
import proofs.«156497_j20512763806070_1_alg».proof.Proof.Reference
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's program runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the batched product of the arguments. -/
theorem algebraic : Cert.algebraic_KernelIdeal_ReferenceIdeal := by
  intro m ρ m' ρ' _ hagree
  refine ⟨fun c => Cert.BatchedProduct.prod4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.product_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
